-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S8192x4096 .f32) (main_arg2 : FVec F S8192x4096 .f32) (main_arg3 : FVec F S8192x4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_v13 main_v16
-- ==== Kernel.lean ====
abbrev S8192x4096 : Shape := ⟨2, ![8192, 4096]⟩
abbrev S4096 : Shape := ⟨1, ![4096]⟩
abbrev S1x4096 : Shape := ⟨2, ![1, 4096]⟩
abbrev S1024x512 : Shape := ⟨2, ![1024, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4096_S1x4096 : S4096.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x4096.size a
  hwx0_6 : ∀ i : grid0.Coords, EltTy.bits .f32 = 32 ∨ (Rect.block (s := S8192x4096) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .i1⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Scalars.lean ====
/-
  One element of the selective state-space step, on the extended reals.

  For a channel with decay logit `a` and step logit `d`, and an entry with previous state `p`, input
  projection `b`, input `v` and output projection `c`:

      gate a      = 1 / (1 + e^(-a))                         (the logistic function)
      stepSize d  = max d 0 + log (1 + e^(-|d|))             (softplus, in its overflow-free form)
      newState    = gate a * p + stepSize d * (b * v)
      readOut     = c * newState

  Two spellings of these meet here.  One writes the gate as the single logistic operation, negates by
  subtracting from zero, and guards the softplus by the ordered test `x ≠ x`; the other expands the gate
  into negate, exponential, add and divide over the constant one, negates directly, and guards by the
  unordered test.  On the extended reals there is no unordered pair, so both tests are never true and the
  guard always takes the softplus branch; `0 - y = -y`; `x - 0 = x`; and the constant one is the real
  number one.  No law here needs the operands to be finite.
-/
import Idealize.ShloMosaic.PureOps.Ideal
import Idealize.ShloMosaic.PureOps.Ideal.Laws

noncomputable section

namespace Cert.Ssm

open Idealize.ShloMosaic

/-- The decay gate: the logistic function. -/
def gate (a : EReal) : EReal := Ideal.logistic a

/-- The step size: softplus as `max d 0 + log (1 + e^(-|d|))`, with `|d| = max d (-d)`. -/
def stepSize (d : EReal) : EReal := max d 0 + Ideal.log1p (Ideal.exp (-(max d (-d))))

/-- One element of the new state. -/
def newState (a d p b v : EReal) : EReal := gate a * p + stepSize d * (b * v)

/-- One element of the read-out. -/
def readOut (a d p b v c : EReal) : EReal := c * newState a d p b v

/-- The word of all zero bits is the number zero. -/
theorem zeroWord : (Scalar.ofBits .f32 0x00000000#32 : Ideal .f32) = (0 : EReal) := Ideal.ofBits_zero_f32

/-- The word of the float one is the number one. -/
theorem oneWord : (FloatOps.ofBits .f32 0x3F800000#32 : Ideal .f32) = (1 : EReal) := by
  show Ideal.ofBits .f32 0x3F800000#32 = 1
  simp [Ideal.ofBits, Ideal.ieee, -EReal.coe_mul]; norm_num

/-- No extended real differs from itself: the guard `x ≠ x` is the bit zero, ordered or unordered. -/
theorem guard_one (x : EReal) : Ideal.cmp .one x x = 0#1 := by
  simp [Ideal.cmp]
theorem guard_une (x : EReal) : Ideal.cmp .une x x = 0#1 := by
  simp [Ideal.cmp]

/-- Softplus as the first spelling writes it (negation as `0 - ·`, the ordered guard) is `stepSize`. -/
theorem stepSize_of_sub (d : Ideal .f32) :
    Scalar.select (FloatOps.cmpf .one (FloatOps.subf d (Scalar.ofBits .f32 0x00000000#32)) (FloatOps.subf d (Scalar.ofBits .f32 0x00000000#32)))
      (FloatOps.addf d (Scalar.ofBits .f32 0x00000000#32))
      (FloatOps.addf (FloatOps.maximumf d (Scalar.ofBits .f32 0x00000000#32))
        (FloatOps.log1p (FloatOps.exp (FloatOps.subf (Scalar.ofBits .f32 0x00000000#32)
          (FloatOps.absf (FloatOps.subf d (Scalar.ofBits .f32 0x00000000#32)))))))
      = stepSize d := by
  rw [Ideal.cmpf_def, guard_one]
  simp only [Scalar.select, zeroWord, Ideal.subf_def, Ideal.addf_def, Ideal.maximumf_def, Ideal.log1p_def, Ideal.exp_def,
    Ideal.absf_def, sub_zero, zero_sub, stepSize]
  rfl

/-- Softplus as the second spelling writes it (direct negation, the unordered guard) is `stepSize`. -/
theorem stepSize_of_neg (d : Ideal .f32) :
    Scalar.select (FloatOps.cmpf .une (FloatOps.subf d (FloatOps.ofBits .f32 0x00000000#32)) (FloatOps.subf d (FloatOps.ofBits .f32 0x00000000#32)))
      (FloatOps.addf d (FloatOps.ofBits .f32 0x00000000#32))
      (FloatOps.addf (FloatOps.maximumf d (FloatOps.ofBits .f32 0x00000000#32))
        (FloatOps.hostUnary .log1p (FloatOps.hostUnary .exp (FloatOps.hostNegf
          (FloatOps.hostAbsf (FloatOps.subf d (FloatOps.ofBits .f32 0x00000000#32)))))))
      = stepSize d := by
  rw [Ideal.cmpf_def, guard_une]
  have hz : (FloatOps.ofBits .f32 0x00000000#32 : Ideal .f32) = (0 : EReal) := Ideal.ofBits_zero_f32
  simp only [Scalar.select, hz, Ideal.subf_def, Ideal.addf_def, Ideal.maximumf_def, Ideal.hostUnary_log1p_def,
    Ideal.hostUnary_exp_def, Ideal.hostNegf_def, Ideal.hostAbsf_def, Ideal.negf_def, Ideal.absf_def, sub_zero, stepSize]
  rfl

/-- One entry of the new state as the first spelling writes it. -/
theorem newState_of_sub (a d p b v : Ideal .f32) :
    FloatOps.addf (FloatOps.mulf (FloatOps.logistic a) p)
      (FloatOps.mulf
        (Scalar.select (FloatOps.cmpf .one (FloatOps.subf d (Scalar.ofBits .f32 0x00000000#32)) (FloatOps.subf d (Scalar.ofBits .f32 0x00000000#32)))
          (FloatOps.addf d (Scalar.ofBits .f32 0x00000000#32))
          (FloatOps.addf (FloatOps.maximumf d (Scalar.ofBits .f32 0x00000000#32))
            (FloatOps.log1p (FloatOps.exp (FloatOps.subf (Scalar.ofBits .f32 0x00000000#32)
              (FloatOps.absf (FloatOps.subf d (Scalar.ofBits .f32 0x00000000#32))))))))
        (FloatOps.mulf b v))
      = newState a d p b v := by
  rw [stepSize_of_sub]
  rfl

/-- One entry of the read-out as the first spelling writes it. -/
theorem readOut_of_sub (a d p b v c : Ideal .f32) :
    FloatOps.mulf c (FloatOps.addf (FloatOps.mulf (FloatOps.logistic a) p)
      (FloatOps.mulf
        (Scalar.select (FloatOps.cmpf .one (FloatOps.subf d (Scalar.ofBits .f32 0x00000000#32)) (FloatOps.subf d (Scalar.ofBits .f32 0x00000000#32)))
          (FloatOps.addf d (Scalar.ofBits .f32 0x00000000#32))
          (FloatOps.addf (FloatOps.maximumf d (Scalar.ofBits .f32 0x00000000#32))
            (FloatOps.log1p (FloatOps.exp (FloatOps.subf (Scalar.ofBits .f32 0x00000000#32)
              (FloatOps.absf (FloatOps.subf d (Scalar.ofBits .f32 0x00000000#32))))))))
        (FloatOps.mulf b v)))
      = readOut a d p b v c := by
  rw [newState_of_sub]
  rfl

/-- The gate expanded into negate, exponential, add and divide over the constant one is the logistic function. -/
theorem gate_of_div (a : Ideal .f32) :
    FloatOps.hostDivf (FloatOps.ofBits .f32 0x3F800000#32 : Ideal .f32)
      (FloatOps.addf (FloatOps.ofBits .f32 0x3F800000#32) (FloatOps.hostUnary .exp (FloatOps.hostNegf a)))
      = gate a := by
  rw [oneWord]
  rfl

end Cert.Ssm

end
-- ==== Proof.Arrays.lean ====
/-
  The step over whole arrays.  The state, the two projections and the input are batch × channel arrays
  (8192 × 4096); the two logits are one value per channel (4096).  Entry (r, k) of the new state uses
  channel k's gate and step size and the (r, k) entries of the four big arrays; the read-out multiplies
  that by the (r, k) entry of the output projection.
-/
import proofs.«114871_j73632919322669_1_alg».proof.Proof.Scalars
import Idealize.ShloMosaic.Lib.ValueIdx

noncomputable section

namespace Cert.Ssm

open Idealize.ShloMosaic Idealize.ShloMosaic.ValueIdx

/-- Batch × channel. -/
abbrev Full : Shape := ⟨2, ![8192, 4096]⟩
/-- One value per channel. -/
abbrev Chans : Shape := ⟨1, ![4096]⟩

/-- The channel of an entry. -/
abbrev chan (i : Full.Idx) : Chans.Idx := ix1 (i 1)

/-- The new state, entry by entry. -/
def stateArr (prev b v : Full.Idx → EReal) (a d : Chans.Idx → EReal) : Full.Idx → EReal :=
  fun i => newState (a (chan i)) (d (chan i)) (prev i) (b i) (v i)

/-- The read-out, entry by entry. -/
def outArr (prev b v c : Full.Idx → EReal) (a d : Chans.Idx → EReal) : Full.Idx → EReal :=
  fun i => readOut (a (chan i)) (d (chan i)) (prev i) (b i) (v i) (c i)

theorem outArr_apply (prev b v c : Full.Idx → EReal) (a d : Chans.Idx → EReal) (i : Full.Idx) :
    outArr prev b v c a d i = c i * stateArr prev b v a d i := rfl

end Cert.Ssm

end
-- ==== Proof.KernelBlocks.lean ====
/-
  The tiled program, one tile at a time.  The grid is 8 × 8; at point (p, q) the four big inputs and the
  two outputs are staged as the 1024 × 512 tile (p, q) of their arrays, and the two logits (kept as
  1 × 4096 rows) as the 1 × 512 piece q of their rows.  Inside a tile, entry (r, k) reads the logits at
  (0, k), so the tile the body leaves is the step applied entry by entry with the channel taken from the
  entry's column.  The 64 tiles cover the arrays, so after the run each output array is the step applied
  entry by entry to the whole arguments.
-/
import proofs.«114871_j73632919322669_1_alg».proof.Proof.Arrays
import proofs.«114871_j73632919322669_1_alg».proof.Proof.Gen.KernelIdeal.Value
import Idealize.ShloMosaic.Lib.Pipeline.Value
import Idealize.ShloMosaic.Lib.ValueIdx

noncomputable section

namespace Cert.KernelIdeal.StepValue

open Cert.KernelIdeal Cert.KernelIdeal.Gen Cert.KernelIdeal.Value Idealize.ShloMosaic Idealize.ShloMosaic.TcCoe Idealize.SL.Sem
open Idealize.ShloMosaic.ValueIdx Cert.Ssm
open Idealize.ShloMosaic.Pipeline (Dat)

theorem origin : (![0, 0] : Fin 2 → Nat) = fun _ => 0 := funext fun a => by fin_cases a <;> rfl

/-! ## One tile -/

/-- Where an entry of a tile reads a 1 × 512 piece of a logit row: row 0, the entry's column. -/
abbrev colOf (y : S1024x512.Idx) : S1x512.Idx := ix2 (0 : Fin 1) (y 1)

/-- The state tile the body leaves, entry by entry. -/
theorem stateTile_apply (x0 x1 x2 x3 : Vec Ideal S1024x512 .f32) (x4 x5 : Vec Ideal S1x512 .f32) (y : S1024x512.Idx) :
    out0_6 x0 x1 x2 x3 x4 x5 y = newState (x4 (colOf y)) (x5 (colOf y)) (x0 y) (x1 y) (x2 y) := by
  unfold out0_6
  rw [canon6_eq]
  simp only [View.ld_unit_zero (S := S1x512) origin, View.ld_unit_zero (S := S1024x512) origin]
  have ec : ix6_0 y = colOf y := funext fun a => match a with | ⟨0, _⟩ => rfl | ⟨1, _⟩ => rfl
  have ey : ix6_1 y = y := funext fun a => match a with | ⟨0, _⟩ => rfl | ⟨1, _⟩ => rfl
  refine (newState_of_sub (x4 (ix6_0 y)) (x5 (ix6_0 y)) (x0 (ix6_1 y)) (x1 (ix6_1 y)) (x2 (ix6_1 y))).trans ?_
  rw [ec, ey]

/-- The read-out tile the body leaves, entry by entry. -/
theorem outTile_apply (x0 x1 x2 x3 : Vec Ideal S1024x512 .f32) (x4 x5 : Vec Ideal S1x512 .f32) (y : S1024x512.Idx) :
    out0_7 x0 x1 x2 x3 x4 x5 y = readOut (x4 (colOf y)) (x5 (colOf y)) (x0 y) (x1 y) (x2 y) (x3 y) := by
  unfold out0_7
  rw [canon7_eq]
  simp only [View.ld_unit_zero (S := S1x512) origin, View.ld_unit_zero (S := S1024x512) origin]
  have ec : ix7_1 y = colOf y := funext fun a => match a with | ⟨0, _⟩ => rfl | ⟨1, _⟩ => rfl
  have ey : ix7_0 y = y := funext fun a => match a with | ⟨0, _⟩ => rfl | ⟨1, _⟩ => rfl
  refine (readOut_of_sub (x4 (ix7_1 y)) (x5 (ix7_1 y)) (x0 (ix7_0 y)) (x1 (ix7_0 y)) (x2 (ix7_0 y)) (x3 (ix7_0 y))).trans ?_
  rw [ec, ey]

/-! ## The tiles in their arrays -/

variable (m : (ℓ : Loc nD τ sig) → Buf (Elt Ideal) ℓ) (ρ : Dev nD → PrngReg)

/-- Where an entry of the full array reads a logit row: row 0, the entry's column. -/
abbrev rowChan (i : S8192x4096.Idx) : S1x4096.Idx := ix2 (0 : Fin 1) (i 1)

/-- The new state over the logits as rows. -/
def stateRows (prev b v : S8192x4096.Idx → EReal) (a2 d2 : S1x4096.Idx → EReal) : S8192x4096.Idx → EReal :=
  fun i => newState (a2 (rowChan i)) (d2 (rowChan i)) (prev i) (b i) (v i)

/-- The read-out over the logits as rows. -/
def outRows (prev b v cc : S8192x4096.Idx → EReal) (a2 d2 : S1x4096.Idx → EReal) : S8192x4096.Idx → EReal :=
  fun i => readOut (a2 (rowChan i)) (d2 (rowChan i)) (prev i) (b i) (v i) (cc i)

/-- At every grid point the six big windows sit on one tile, the two row windows on that tile's column
    piece of row 0, and the tile's coordinates are below 8 (decided over the 64 points). -/
theorem tile_facts : ∀ t : Fin cfg0.N,
    win0_0.index t (0 : Fin 2) = win0_6.index t (0 : Fin 2) ∧ win0_0.index t (1 : Fin 2) = win0_6.index t (1 : Fin 2)
    ∧ win0_1.index t (0 : Fin 2) = win0_6.index t (0 : Fin 2) ∧ win0_1.index t (1 : Fin 2) = win0_6.index t (1 : Fin 2)
    ∧ win0_2.index t (0 : Fin 2) = win0_6.index t (0 : Fin 2) ∧ win0_2.index t (1 : Fin 2) = win0_6.index t (1 : Fin 2)
    ∧ win0_3.index t (0 : Fin 2) = win0_6.index t (0 : Fin 2) ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every tile is some grid point's. -/
theorem tile_onto : ∀ (q0 : Fin 8) (q1 : Fin 8), ∃ t : Fin cfg0.N, win0_6.index t = ![q0.val, q1.val] :=
  (by decide +kernel : ∀ (q0 : Fin 8) (q1 : Fin 8), ∃ t : Fin grid0.N, win0_6.index t = ![q0.val, q1.val])

/-- What point `t` writes back to the state array is tile `t` of `stateRows` of the arrays as the region finds them. -/
theorem stateFlushed (c : Dev nD) (t : Fin cfg0.N) :
    (dats m 0 c).flushed 6 t = ((cfg0.win 6).blk t).view.read (Elt Ideal)
      (stateRows (V m c main_arg0) (V m c main_arg1) (V m c main_arg2) (V m c main_v0) (V m c main_v1)) := by
  rw [flushed6]
  obtain ⟨a0, a1, b0, b1, c0, c1, d0, d1, e0, e1, f0, f1, g0, g1, h0, h1⟩ := tile_facts t
  funext j
  show out0_6 (iblk m c 0 t) (iblk m c 1 t) (iblk m c 2 t) (iblk m c 3 t) (iblk m c 4 t) (iblk m c 5 t) j = _
  refine (stateTile_apply (iblk m c 0 t) (iblk m c 1 t) (iblk m c 2 t) (iblk m c 3 t) (iblk m c 4 t) (iblk m c 5 t) j).trans ?_
  rw [View.read_apply]
  have hj0 : (j 0).val < 1024 := (j 0).isLt
  have hj1 : (j 1).val < 512 := (j 1).isLt
  have k0 : ((cfg0.win 0).blk t).view.emb j = ((cfg0.win 6).blk t).view.emb j := by
    funext a; apply Fin.ext
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 512 + 1 * (j 1).val = win0_6.index t (1 : Fin 2) * 512 + 1 * (j 1).val; omega
  have k1 : ((cfg0.win 1).blk t).view.emb j = ((cfg0.win 6).blk t).view.emb j := by
    funext a; apply Fin.ext
    match a with
    | ⟨0, _⟩ => show win0_1.index t (0 : Fin 2) * 1024 + 1 * (j 0).val = win0_6.index t (0 : Fin 2) * 1024 + 1 * (j 0).val; omega
    | ⟨1, _⟩ => show win0_1.index t (1 : Fin 2) * 512 + 1 * (j 1).val = win0_6.index t (1 : Fin 2) * 512 + 1 * (j 1).val; omega
  have k2 : ((cfg0.win 2).blk t).view.emb j = ((cfg0.win 6).blk t).view.emb j := by
    funext a; apply Fin.ext
    match a with
    | ⟨0, _⟩ => show win0_2.index t (0 : Fin 2) * 1024 + 1 * (j 0).val = win0_6.index t (0 : Fin 2) * 1024 + 1 * (j 0).val; omega
    | ⟨1, _⟩ => show win0_2.index t (1 : Fin 2) * 512 + 1 * (j 1).val = win0_6.index t (1 : Fin 2) * 512 + 1 * (j 1).val; omega
  have k4 : ((cfg0.win 4).blk t).view.emb (colOf j) = rowChan (((cfg0.win 6).blk t).view.emb j) := by
    funext a; apply Fin.ext
    match a with
    | ⟨0, _⟩ => show win0_4.index t (0 : Fin 2) * 1 + 1 * 0 = 0; omega
    | ⟨1, _⟩ => show win0_4.index t (1 : Fin 2) * 512 + 1 * (j 1).val = win0_6.index t (1 : Fin 2) * 512 + 1 * (j 1).val; omega
  have k5 : ((cfg0.win 5).blk t).view.emb (colOf j) = rowChan (((cfg0.win 6).blk t).view.emb j) := by
    funext a; apply Fin.ext
    match a with
    | ⟨0, _⟩ => show win0_5.index t (0 : Fin 2) * 1 + 1 * 0 = 0; omega
    | ⟨1, _⟩ => show win0_5.index t (1 : Fin 2) * 512 + 1 * (j 1).val = win0_6.index t (1 : Fin 2) * 512 + 1 * (j 1).val; omega
  show newState (V m c main_v0 (((cfg0.win 4).blk t).view.emb (colOf j))) (V m c main_v1 (((cfg0.win 5).blk t).view.emb (colOf j)))
      (V m c main_arg0 (((cfg0.win 0).blk t).view.emb j)) (V m c main_arg1 (((cfg0.win 1).blk t).view.emb j)) (V m c main_arg2 (((cfg0.win 2).blk t).view.emb j))
    = newState (V m c main_v0 (rowChan (((cfg0.win 6).blk t).view.emb j))) (V m c main_v1 (rowChan (((cfg0.win 6).blk t).view.emb j)))
      (V m c main_arg0 (((cfg0.win 6).blk t).view.emb j)) (V m c main_arg1 (((cfg0.win 6).blk t).view.emb j)) (V m c main_arg2 (((cfg0.win 6).blk t).view.emb j))
  rw [k0, k1, k2, k4, k5]

/-- What point `t` writes back to the read-out array is tile `t` of `outRows` of the arrays as the region finds them. -/
theorem outFlushed (c : Dev nD) (t : Fin cfg0.N) :
    (dats m 0 c).flushed 7 t = ((cfg0.win 7).blk t).view.read (Elt Ideal)
      (outRows (V m c main_arg0) (V m c main_arg1) (V m c main_arg2) (V m c main_arg3) (V m c main_v0) (V m c main_v1)) := by
  rw [flushed7]
  obtain ⟨a0, a1, b0, b1, c0, c1, d0, d1, e0, e1, f0, f1, g0, g1, h0, h1⟩ := tile_facts t
  funext j
  show out0_7 (iblk m c 0 t) (iblk m c 1 t) (iblk m c 2 t) (iblk m c 3 t) (iblk m c 4 t) (iblk m c 5 t) j = _
  refine (outTile_apply (iblk m c 0 t) (iblk m c 1 t) (iblk m c 2 t) (iblk m c 3 t) (iblk m c 4 t) (iblk m c 5 t) j).trans ?_
  rw [View.read_apply]
  have hj0 : (j 0).val < 1024 := (j 0).isLt
  have hj1 : (j 1).val < 512 := (j 1).isLt
  have k0 : ((cfg0.win 0).blk t).view.emb j = ((cfg0.win 7).blk t).view.emb j := by
    funext a; apply Fin.ext
    match a with
    | ⟨0, _⟩ => show win0_0.index t (0 : Fin 2) * 1024 + 1 * (j 0).val = win0_7.index t (0 : Fin 2) * 1024 + 1 * (j 0).val; omega
    | ⟨1, _⟩ => show win0_0.index t (1 : Fin 2) * 512 + 1 * (j 1).val = win0_7.index t (1 : Fin 2) * 512 + 1 * (j 1).val; omega
  have k1 : ((cfg0.win 1).blk t).view.emb j = ((cfg0.win 7).blk t).view.emb j := by
    funext a; apply Fin.ext
    match a with
    | ⟨0, _⟩ => show win0_1.index t (0 : Fin 2) * 1024 + 1 * (j 0).val = win0_7.index t (0 : Fin 2) * 1024 + 1 * (j 0).val; omega
    | ⟨1, _⟩ => show win0_1.index t (1 : Fin 2) * 512 + 1 * (j 1).val = win0_7.index t (1 : Fin 2) * 512 + 1 * (j 1).val; omega
  have k2 : ((cfg0.win 2).blk t).view.emb j = ((cfg0.win 7).blk t).view.emb j := by
    funext a; apply Fin.ext
    match a with
    | ⟨0, _⟩ => show win0_2.index t (0 : Fin 2) * 1024 + 1 * (j 0).val = win0_7.index t (0 : Fin 2) * 1024 + 1 * (j 0).val; omega
    | ⟨1, _⟩ => show win0_2.index t (1 : Fin 2) * 512 + 1 * (j 1).val = win0_7.index t (1 : Fin 2) * 512 + 1 * (j 1).val; omega
  have k3 : ((cfg0.win 3).blk t).view.emb j = ((cfg0.win 7).blk t).view.emb j := by
    funext a; apply Fin.ext
    match a with
    | ⟨0, _⟩ => show win0_3.index t (0 : Fin 2) * 1024 + 1 * (j 0).val = win0_7.index t (0 : Fin 2) * 1024 + 1 * (j 0).val; omega
    | ⟨1, _⟩ => show win0_3.index t (1 : Fin 2) * 512 + 1 * (j 1).val = win0_7.index t (1 : Fin 2) * 512 + 1 * (j 1).val; omega
  have k4 : ((cfg0.win 4).blk t).view.emb (colOf j) = rowChan (((cfg0.win 7).blk t).view.emb j) := by
    funext a; apply Fin.ext
    match a with
    | ⟨0, _⟩ => show win0_4.index t (0 : Fin 2) * 1 + 1 * 0 = 0; omega
    | ⟨1, _⟩ => show win0_4.index t (1 : Fin 2) * 512 + 1 * (j 1).val = win0_7.index t (1 : Fin 2) * 512 + 1 * (j 1).val; omega
  have k5 : ((cfg0.win 5).blk t).view.emb (colOf j) = rowChan (((cfg0.win 7).blk t).view.emb j) := by
    funext a; apply Fin.ext
    match a with
    | ⟨0, _⟩ => show win0_5.index t (0 : Fin 2) * 1 + 1 * 0 = 0; omega
    | ⟨1, _⟩ => show win0_5.index t (1 : Fin 2) * 512 + 1 * (j 1).val = win0_7.index t (1 : Fin 2) * 512 + 1 * (j 1).val; omega
  show readOut (V m c main_v0 (((cfg0.win 4).blk t).view.emb (colOf j))) (V m c main_v1 (((cfg0.win 5).blk t).view.emb (colOf j)))
      (V m c main_arg0 (((cfg0.win 0).blk t).view.emb j)) (V m c main_arg1 (((cfg0.win 1).blk t).view.emb j)) (V m c main_arg2 (((cfg0.win 2).blk t).view.emb j))
      (V m c main_arg3 (((cfg0.win 3).blk t).view.emb j))
    = readOut (V m c main_v0 (rowChan (((cfg0.win 7).blk t).view.emb j))) (V m c main_v1 (rowChan (((cfg0.win 7).blk t).view.emb j)))
      (V m c main_arg0 (((cfg0.win 7).blk t).view.emb j)) (V m c main_arg1 (((cfg0.win 7).blk t).view.emb j)) (V m c main_arg2 (((cfg0.win 7).blk t).view.emb j))
      (V m c main_arg3 (((cfg0.win 7).blk t).view.emb j))
  rw [k0, k1, k2, k3, k4, k5]

/-! ## The tiles cover the arrays -/

/-- Every tile of the read-out array is some grid point's. -/
theorem tile_onto' : ∀ (q0 : Fin 8) (q1 : Fin 8), ∃ t : Fin cfg0.N, win0_7.index t = ![q0.val, q1.val] :=
  (by decide +kernel : ∀ (q0 : Fin 8) (q1 : Fin 8), ∃ t : Fin grid0.N, win0_7.index t = ![q0.val, q1.val])

/-- An entry is in point `t`'s state tile iff each coordinate is in the tile's range on its axis. -/
theorem mem_stateTile (t : Fin cfg0.N) (i : S8192x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v2_0).slice (win0_6.rect t)).set ↔ _
  rw [View.set_slice_whole, Rect.mem_set_unit]
  exact Iff.rfl

/-- An entry is in point `t`'s read-out tile iff each coordinate is in the tile's range on its axis. -/
theorem mem_outTile (t : Fin cfg0.N) (i : S8192x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v2_1).slice (win0_7.rect t)).set ↔ _
  rw [View.set_slice_whole, Rect.mem_set_unit]
  exact Iff.rfl

/-- Entry (r, k) lies in the state tile (r / 1024, k / 512). -/
theorem stateCover (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := tile_onto ⟨(i 0).val / 1024, by omega⟩ ⟨(i 1).val / 512, by omega⟩
  have q0 : win0_6.index t (0 : Fin 2) = (i 0).val / 1024 := congrFun ht 0
  have q1 : win0_6.index t (1 : Fin 2) = (i 1).val / 512 := congrFun ht 1
  refine ⟨t, flush0_6 t, ?_⟩
  rw [mem_stateTile]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- Entry (r, k) lies in the read-out tile (r / 1024, k / 512). -/
theorem outCover (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ := tile_onto' ⟨(i 0).val / 1024, by omega⟩ ⟨(i 1).val / 512, by omega⟩
  have q0 : win0_7.index t (0 : Fin 2) = (i 0).val / 1024 := congrFun ht 0
  have q1 : win0_7.index t (1 : Fin 2) = (i 1).val / 512 := congrFun ht 1
  refine ⟨t, flush0_7 t, ?_⟩
  rw [mem_outTile]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- After the run the state array is `stateRows` of the arrays as the region finds them. -/
theorem stateFinal (c : Dev nD) : (dats m 0 c).arrAt 6 cfg0.N
    = stateRows (V m c main_arg0) (V m c main_arg1) (V m c main_arg2) (V m c main_v0) (V m c main_v1) :=
  (dats m 0 c).arrAt_eq_of_cover 6 _ (fun t _ => stateFlushed m c t) stateCover

/-- After the run the read-out array is `outRows` of the arrays as the region finds them. -/
theorem outFinal (c : Dev nD) : (dats m 0 c).arrAt 7 cfg0.N
    = outRows (V m c main_arg0) (V m c main_arg1) (V m c main_arg2) (V m c main_arg3) (V m c main_v0) (V m c main_v1) :=
  (dats m 0 c).arrAt_eq_of_cover 7 _ (fun t _ => outFlushed m c t) outCover

end Cert.KernelIdeal.StepValue

end
-- ==== Proof.KernelRun.lean ====
/-
  From the tiles to the arguments.  Before the grid runs, the two logit vectors are re-laid as 1 × 4096
  rows, and nothing else is touched; a row at (0, k) is its vector at k.  So the arrays the tiled run
  leaves are `stateArr` and `outArr` of the six arguments, and the arguments end as they began.
-/
import proofs.«114871_j73632919322669_1_alg».proof.Proof.KernelBlocks
import Idealize.ShloMosaic.Lib.StableHlo.Run

noncomputable section

namespace Cert.KernelIdeal.StepValue

open Cert.KernelIdeal Cert.KernelIdeal.Gen Cert.KernelIdeal.Value Idealize.ShloMosaic Idealize.ShloMosaic.TcCoe Idealize.SL.Sem
open Idealize.ShloMosaic.ValueIdx Cert.Ssm Idealize.ShloMosaic.StableHlo

variable (m : (ℓ : Loc nD τ sig) → Buf (Elt Ideal) ℓ) (ρ : Dev nD → PrngReg)

/-- A vector re-laid as a one-row array, read in row 0 at an entry's column, is the vector at the entry's channel. -/
theorem row_apply (x : S4096.Idx → EReal) (i : S8192x4096.Idx) :
    shapeCast S1x4096 x shapeCasts_S4096_S1x4096 (rowChan i) = x (chan i) := by
  refine (shapeCast_addUnit_apply ![4096] x shapeCasts_S4096_S1x4096 (rowChan i)).trans ?_
  congr 1; funext a; match a with | ⟨0, _⟩ => rfl

/-- The decay logits as the region finds them: the argument re-laid as a row. -/
theorem decayRow (c : Dev nD) : (V m c main_v0 : S1x4096.Idx → EReal)
    = shapeCast S1x4096 (m ((c : Thread nD τ).loc main_arg4)) shapeCasts_S4096_S1x4096 := by
  dsimp only [Gen.V, Gen.hostOps0]; after_results; rfl

/-- The step logits as the region finds them: the argument re-laid as a row. -/
theorem stepRow (c : Dev nD) : (V m c main_v1 : S1x4096.Idx → EReal)
    = shapeCast S1x4096 (m ((c : Thread nD τ).loc main_arg5)) shapeCasts_S4096_S1x4096 := by
  dsimp only [Gen.V, Gen.hostOps0]; after_results; rfl

/-- After the run the state array is the new state of the arguments. -/
theorem stateOfArgs (c : Dev nD) : (dats m 0 c).arrAt 6 cfg0.N
    = stateArr (m ((c : Thread nD τ).loc main_arg0)) (m ((c : Thread nD τ).loc main_arg1)) (m ((c : Thread nD τ).loc main_arg2))
        (m ((c : Thread nD τ).loc main_arg4)) (m ((c : Thread nD τ).loc main_arg5)) := by
  rw [stateFinal, V_main_arg0, V_main_arg1, V_main_arg2, decayRow, stepRow]
  funext i
  show newState (shapeCast S1x4096 _ shapeCasts_S4096_S1x4096 (rowChan i)) (shapeCast S1x4096 _ shapeCasts_S4096_S1x4096 (rowChan i)) _ _ _ = _
  rw [row_apply, row_apply]
  rfl

/-- After the run the read-out array is the read-out of the arguments. -/
theorem outOfArgs (c : Dev nD) : (dats m 0 c).arrAt 7 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [outFinal, V_main_arg0, V_main_arg1, V_main_arg2, V_main_arg3, decayRow, stepRow]
  funext i
  show readOut (shapeCast S1x4096 _ shapeCasts_S4096_S1x4096 (rowChan i)) (shapeCast S1x4096 _ shapeCasts_S4096_S1x4096 (rowChan i)) _ _ _ _ = _
  rw [row_apply, row_apply]
  rfl

/-- The tiled program's run: every fair execution ends with the two result arrays at the step of the
    arguments, and the arguments unchanged. -/
theorem run : θ_run defs (onTc (τ := τ) (main (F := Ideal))) ⟨m, fun _ => 0, ρ⟩ fun r => ∀ c : Dev nD,
      r.2.mem ((c : Thread nD τ).loc main_v2_0)
        = stateArr (m ((c : Thread nD τ).loc main_arg0)) (m ((c : Thread nD τ).loc main_arg1)) (m ((c : Thread nD τ).loc main_arg2))
            (m ((c : Thread nD τ).loc main_arg4)) (m ((c : Thread nD τ).loc main_arg5))
      ∧ r.2.mem ((c : Thread nD τ).loc main_v2_1)
        = outArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (stateOfArgs m c), (h c).2.1.trans (outOfArgs m c), (h c).2.2⟩)
    (run_blocks m ρ)

end Cert.KernelIdeal.StepValue

end
-- ==== Proof.RefValue.lean ====
/-
  The host program, read entry by entry.  It forms the gate per channel as 1 / (1 + e^(-a)), the step
  size per channel by the guarded softplus, lifts both to a 1 × 4096 row and then to the full array by
  broadcasting along the batch axis, and combines them with the big arrays entry by entry.  Read at an
  entry (r, k), each broadcast reads its operand at channel k, so the two results are `stateArr` and
  `outArr` of the arguments.
-/
import proofs.«114871_j73632919322669_1_alg».proof.Proof.Arrays
import proofs.«114871_j73632919322669_1_alg».proof.Proof.Gen.ReferenceIdeal.Read

noncomputable section

namespace Cert.ReferenceIdeal.StepValue

open Cert.ReferenceIdeal Cert.ReferenceIdeal.Read Idealize.ShloMosaic Idealize.ShloMosaic.ValueIdx Cert.Ssm

/-- Through the two broadcasts, entry `i` reads the gate's vector at `i`'s channel. -/
theorem gate_chan (i : S8192x4096.Idx) : idx_main_v6 (idx_main_v9 i) = chan i :=
  funext fun a => match a with | ⟨0, _⟩ => rfl

/-- Through the two broadcasts, entry `i` reads the step size's vector at `i`'s channel. -/
theorem step_chan (i : S8192x4096.Idx) : idx_main_v8 (idx_main_v12 i) = chan i :=
  funext fun a => match a with | ⟨0, _⟩ => rfl

/-- The broadcast gate at an entry is the logistic function of that channel's decay logit. -/
theorem gate_at (x4 : S4096.Idx → EReal) (i : S8192x4096.Idx) :
    val_main_v9 (F := Ideal) x4 i = gate (x4 (chan i)) := by
  rw [val_main_v9_apply, val_main_v6_apply, val_main_v5_apply, val_main_v4_apply, val_main_cst_0_apply,
    val_main_v3_apply, val_main_v2_apply, val_main_cst_apply, val_main_v1_apply, val_main_v0_apply, gate_chan]
  exact gate_of_div _

/-- The broadcast step size at an entry is the softplus of that channel's step logit. -/
theorem step_at (x5 : S4096.Idx → EReal) (i : S8192x4096.Idx) :
    val_main_v12 (F := Ideal) x5 i = stepSize (x5 (chan i)) := by
  rw [val_main_v12_apply, val_main_v8_apply, step_chan, val_main_v7_apply, val_main_call0_v4_apply,
    val_main_call0_v6_apply, val_main_call0_v11_apply, val_main_call0_v1_apply, val_main_call0_v10_apply,
    val_main_call0_v9_apply, val_main_call0_v8_apply, val_main_call0_v7_apply, val_main_call0_v3_apply,
    val_main_call0_v0_apply, val_main_call0_v2_apply, val_main_call0_v5_apply, val_main_call0_cst_apply]
  exact stepSize_of_neg _

/-- The host's first result is the new state. -/
theorem state_eq (x0 x1 x2 : S8192x4096.Idx → EReal) (x4 x5 : S4096.Idx → EReal) :
    val_main_v14 (F := Ideal) x0 x1 x2 x4 x5 = stateArr x0 x1 x2 x4 x5 := by
  funext i
  rw [val_main_v14_apply, val_main_v10_apply, val_main_v13_apply, val_main_v11_apply, gate_at, step_at]
  rfl

/-- The host's second result is the read-out. -/
theorem out_eq (x0 x1 x2 x3 : S8192x4096.Idx → EReal) (x4 x5 : S4096.Idx → EReal) :
    val_main_v15 (F := Ideal) x0 x1 x2 x3 x4 x5 = outArr x0 x1 x2 x3 x4 x5 := by
  funext i
  rw [val_main_v15_apply, state_eq]
  rfl

end Cert.ReferenceIdeal.StepValue

end
-- ==== Proof.lean ====
/-
  One step of a selective state-space recurrence, tiled, against its plain array form.

  For channel k with decay logit a[k] and step logit d[k], and entry (r, k) with previous state p, input
  projection b, input v and output projection c:

      new_state[r, k] = sigmoid(a[k]) * p[r, k] + softplus(d[k]) * (b[r, k] * v[r, k])
      y[r, k]         = c[r, k] * new_state[r, k]

  The tiled program walks an 8 × 8 grid of 1024 × 512 tiles and computes both results tile by tile; the
  plain program computes them over the whole arrays after broadcasting the per-channel factors.  On the
  extended reals both compute the same entry-by-entry function of the arguments (Scalars, Arrays): the
  tiles cover the arrays and each tile is that function restricted to it (KernelBlocks, KernelRun), and the
  plain program's operations read at an entry are the same expression (RefValue).  The two spellings of
  the logistic function and of the guarded softplus agree on every extended real, so the precondition
  that the inputs are finite is not used.  The idealized tiled program is the tiled program's own text
  read over the extended reals, so nothing is owed for that.
-/
import proofs.«114871_j73632919322669_1_alg».proof.Defs
import proofs.«114871_j73632919322669_1_alg».proof.Proof.Gen.Kernel
import proofs.«114871_j73632919322669_1_alg».proof.Proof.Gen.Kernel.Skeleton
import proofs.«114871_j73632919322669_1_alg».proof.Proof.Gen.Kernel.Launch
import proofs.«114871_j73632919322669_1_alg».proof.Proof.Gen.Kernel.Points
import proofs.«114871_j73632919322669_1_alg».proof.Proof.Gen.Kernel.Frame
import proofs.«114871_j73632919322669_1_alg».proof.Proof.Gen.KernelIdeal
import proofs.«114871_j73632919322669_1_alg».proof.Proof.Gen.KernelIdeal.Skeleton
import proofs.«114871_j73632919322669_1_alg».proof.Proof.Gen.KernelIdeal.Launch
import proofs.«114871_j73632919322669_1_alg».proof.Proof.Gen.KernelIdeal.Points
import proofs.«114871_j73632919322669_1_alg».proof.Proof.Gen.KernelIdeal.Frame
import proofs.«114871_j73632919322669_1_alg».proof.Proof.Gen.ReferenceIdeal
import proofs.«114871_j73632919322669_1_alg».proof.Proof.Gen.Pre_finite_inputs
import proofs.«114871_j73632919322669_1_alg».proof.Proof.Gen.KernelIdeal.Value
import proofs.«114871_j73632919322669_1_alg».proof.Proof.Gen.ReferenceIdeal.Run
import proofs.«114871_j73632919322669_1_alg».proof.Proof.Gen.ReferenceIdeal.Read
import proofs.«114871_j73632919322669_1_alg».proof.Proof.KernelRun
import proofs.«114871_j73632919322669_1_alg».proof.Proof.RefValue
import Idealize.ShloMosaic.Adequacy
import Idealize.ShloMosaic.Init

noncomputable section

namespace Cert.Proof

open Idealize.ShloMosaic Idealize.ShloMosaic.TcCoe Idealize.SL.Sem

/-- The tiled program at the word level runs, and leaves its arguments alone. -/
theorem frame_tiled : Cert.frame_Kernel := fun m ρ _ => Cert.Kernel.Gen.frame m ρ

/-- So does its reading over the extended reals. -/
theorem frame_tiledIdeal : Cert.frame_KernelIdeal := fun m ρ _ => Cert.KernelIdeal.Gen.frame m ρ

/-- The plain program runs and leaves its arguments alone: its run, with the two results dropped. -/
theorem frame_plain : Cert.frame_ReferenceIdeal := fun m ρ _ =>
  (θ_run Cert.ReferenceIdeal.defs _ _).mono (fun _ h c => (h c).2.2) (Cert.ReferenceIdeal.Value.run (F := Ideal) m ρ)

/-- From arguments that agree, the two programs end with the new state and the read-out of those
    arguments: the tiled one by its tiles, the plain one by its operations read at an entry. -/
theorem algebraic : Cert.algebraic_KernelIdeal_ReferenceIdeal := by
  intro m ρ m' ρ' _ hagree
  refine ⟨_, _, Cert.KernelIdeal.StepValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.StepValue.state_eq,
      (hagree c).1, (hagree c).2.1, (hagree c).2.2.1, (hagree c).2.2.2.2.1, (hagree c).2.2.2.2.2]
  · rw [Cert.ReferenceIdeal.Read.val_main_v15_eq, Cert.ReferenceIdeal.StepValue.out_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_tiled, frame_tiledIdeal, frame_plain, trivial, algebraic⟩

end Cert.Proof

end
